-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x512 : Shape := ⟨3, ![256, 512, 512]⟩
abbrev S_ : Shape := ⟨0, ![]⟩

class Facts : Prop where
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel

variable [Facts]

def fn {F : FTy → Type} [FloatOps F] (main_arg0 : FVec F S256x512x512 .f32) : IVec S_ 1 :=
  let main_v0 : FVec F S256x512x512 .f32 := Host.absf main_arg0
  let main_cst : FVec F S_ .f32 := constant S_ .f32 0x7F800000#32
  let main_v1 : FVec F S256x512x512 .f32 := broadcastInDim S256x512x512 ![] bcast_S_S256x512x512 main_cst
  let main_v2 : IVec S256x512x512 1 := cmpf .olt main_v0 main_v1
  let main_c : IVec S_ 1 := constantI S_ 1 1#1
  let main_v3 : IVec S_ 1 := (fun x v => Host.reduce IntOp.andi x v reducesTo_S256x512x512_S_d0_1_2 h_S_) main_v2 main_c
  main_v3
-- ==== Kernel.lean ====
abbrev S256x512x512 : Shape := ⟨3, ![256, 512, 512]⟩
abbrev S4x512x512 : Shape := ⟨3, ![4, 512, 512]⟩
abbrev S4x512 : Shape := ⟨2, ![4, 512]⟩
abbrev S4x512x1 : Shape := ⟨3, ![4, 512, 1]⟩
abbrev S4x1x512 : Shape := ⟨3, ![4, 1, 512]⟩
abbrev S4x1 : Shape := ⟨2, ![4, 1]⟩
abbrev S4x1x1 : Shape := ⟨3, ![4, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S256x512x512, .f32⟩
  | .hbm, ⟨1, _⟩ => ⟨S256x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | _, _ => ⟨S256x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x512x512_S4x512x512_0_0_0 : ∀ a, (![0, 0, 0] : Fin 3 → Nat) a + S4x512x512.size a ≤ S4x512x512.size a
  h_S4x512x512 : 0 < S4x512x512.numel
  reduces_S4x512x512_S4x512 : S4x512x512.Reduces [2] S4x512
  shapeCasts_S4x512_S4x512x1 : S4x512.ShapeCasts S4x512x1
  reduces_S4x512x512_S4x512_2 : S4x512x512.Reduces [1] S4x512
  shapeCasts_S4x512_S4x1x512 : S4x512.ShapeCasts S4x1x512
  reduces_S4x512x1_S4x1 : S4x512x1.Reduces [1] S4x1
  shapeCasts_S4x1_S4x1x1 : S4x1.ShapeCasts S4x1x1
  broadcasts_S4x512x1_S4x512x512 : S4x512x1.Broadcasts S4x512x512
  broadcasts_S4x1x512_S4x512x512 : S4x1x512.Broadcasts S4x512x512
  broadcasts_S4x1x1_S4x512x512 : S4x1x1.Broadcasts S4x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S256x512x512.size a
  hwx0_0 : ∀ i : grid0.Coords, EltTy.bits .f32 = 32 ∨ (Rect.block (s := S256x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S256x512x512.size a
  hwx0_1 : ∀ i : grid0.Coords, EltTy.bits .f32 = 32 ∨ (Rect.block (s := S256x512x512) S4x512x512.size (cc0_transform_1 i) (hinb0_1 i)).WholeWords (EltTy.packing .f32)

variable [Facts₀]

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x512x512 : Shape := ⟨3, ![256, 512, 512]⟩
abbrev S_ : Shape := ⟨0, ![]⟩
abbrev S256x512 : Shape := ⟨2, ![256, 512]⟩
abbrev S256x512x1 : Shape := ⟨3, ![256, 512, 1]⟩
abbrev S256x1x512 : Shape := ⟨3, ![256, 1, 512]⟩
abbrev S256 : Shape := ⟨1, ![256]⟩
abbrev S256x1x1 : Shape := ⟨3, ![256, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x512x512, .f32⟩
  | .hbm, ⟨1, _⟩ => ⟨S_, .f32⟩
  | .hbm, ⟨2, _⟩ => ⟨S256x512, .f32⟩
  | .hbm, ⟨3, _⟩ => ⟨S256x512x1, .f32⟩
  | .hbm, ⟨4, _⟩ => ⟨S_, .f32⟩
  | .hbm, ⟨5, _⟩ => ⟨S256x512x1, .f32⟩
  | .hbm, ⟨6, _⟩ => ⟨S256x512x1, .f32⟩
  | .hbm, ⟨7, _⟩ => ⟨S_, .f32⟩
  | .hbm, ⟨8, _⟩ => ⟨S256x512, .f32⟩
  | .hbm, ⟨9, _⟩ => ⟨S256x1x512, .f32⟩
  | .hbm, ⟨10, _⟩ => ⟨S_, .f32⟩
  | .hbm, ⟨11, _⟩ => ⟨S256x1x512, .f32⟩
  | .hbm, ⟨12, _⟩ => ⟨S256x1x512, .f32⟩
  | .hbm, ⟨13, _⟩ => ⟨S_, .f32⟩
  | .hbm, ⟨14, _⟩ => ⟨S256, .f32⟩
  | .hbm, ⟨15, _⟩ => ⟨S256x1x1, .f32⟩
  | .hbm, ⟨16, _⟩ => ⟨S_, .f32⟩
  | .hbm, ⟨17, _⟩ => ⟨S256x1x1, .f32⟩
  | .hbm, ⟨18, _⟩ => ⟨S256x1x1, .f32⟩
  | .hbm, ⟨19, _⟩ => ⟨S256x512x512, .f32⟩
  | .hbm, ⟨20, _⟩ => ⟨S256x512x512, .f32⟩
  | .hbm, ⟨21, _⟩ => ⟨S256x512x512, .f32⟩
  | .hbm, ⟨22, _⟩ => ⟨S256x512x512, .f32⟩
  | .hbm, ⟨23, _⟩ => ⟨S256x512x512, .f32⟩
  | .hbm, ⟨24, _⟩ => ⟨S256x512x512, .f32⟩
  | .hbm, ⟨25, _⟩ => ⟨S_, .f32⟩
  | .hbm, ⟨26, _⟩ => ⟨S256x512x512, .f32⟩
  | .hbm, ⟨27, _⟩ => ⟨S256x512x512, .f32⟩
  | _, _ => ⟨S256x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S256x512x512_S256x512_d2 : S256x512x512.ReducesTo [2] S256x512
  h_S_ : 0 < S_.numel
  bcast_S256x512_S256x512x1_0_1 : S256x512.BroadcastsInDim S256x512x1 (![0, 1] : Fin 2 → Fin S256x512x1.rank)
  bcast_S_S256x512x1 : S_.BroadcastsInDim S256x512x1 (![] : Fin 0 → Fin S256x512x1.rank)
  reducesTo_S256x512x512_S256x512_d1 : S256x512x512.ReducesTo [1] S256x512
  bcast_S256x512_S256x1x512_0_2 : S256x512.BroadcastsInDim S256x1x512 (![0, 2] : Fin 2 → Fin S256x1x512.rank)
  bcast_S_S256x1x512 : S_.BroadcastsInDim S256x1x512 (![] : Fin 0 → Fin S256x1x512.rank)
  reducesTo_S256x512x512_S256_d1_2 : S256x512x512.ReducesTo [1, 2] S256
  bcast_S256_S256x1x1_0 : S256.BroadcastsInDim S256x1x1 (![0] : Fin 1 → Fin S256x1x1.rank)
  bcast_S_S256x1x1 : S_.BroadcastsInDim S256x1x1 (![] : Fin 0 → Fin S256x1x1.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S256x1x1_S256x512x512_0_1_2 : S256x1x1.BroadcastsInDim S256x512x512 (![0, 1, 2] : Fin 3 → Fin S256x512x512.rank)
  bcast_S_S256x512x512 : S_.BroadcastsInDim S256x512x512 (![] : Fin 0 → Fin S256x512x512.rank)

variable [Facts₀]

class Facts : Prop extends Facts₀ where

variable [Facts]
-- ==== Proof.Centering.lean ====
/-
  Double centring of a stack of square matrices, as a function of the stack, entry by entry.

  For a stack `D` of `n` matrices of 512 × 512 extended reals, the entry (b, r, c) of the centred stack is
      -1/2 · (((D b r c − R b r · 2⁻⁹) − C b c · 2⁻⁹) + T b · 2⁻¹⁸),
  where `R b r = ∑ₖ D b r k` is a row sum, `C b c = ∑ₖ D b k c` a column sum and `T b = ∑_q ∑ₖ D b q k` the
  total of matrix `b`.  The scales are written as the float words that spell them (2⁻⁹ = 1/512 and
  2⁻¹⁸ = 1/512² are dyadic, so the words denote exactly those reals).

  Also here: dividing an extended real by 512 (or by 512²) is multiplying it by 2⁻⁹ (by 2⁻¹⁸), at the
  infinities too; a sum over the two trailing axes of a stack is the iterated sum over rows then columns; and a
  block of four consecutive matrices of a larger stack is centred exactly as those four matrices are inside the stack.
-/
import Idealize.ShloMosaic.PureOps.Ideal
import Idealize.ShloMosaic.PureOps.Ideal.Laws
import Idealize.ShloMosaic.Lib.ValueIdx

noncomputable section

open scoped BigOperators

namespace Cert.Centering

open Idealize.ShloMosaic Idealize.ShloMosaic.ValueIdx

/-! ## The four scales -/

/-- The word `0x44000000` is 512. -/
theorem ofBits_512 : Ideal.ofBits .f32 0x44000000#32 = ((512 : ℝ) : EReal) := by
  simp [Ideal.ofBits, Ideal.ieee, -EReal.coe_mul]; norm_num

/-- The word `0x3B000000` is 2⁻⁹ = 1/512. -/
theorem ofBits_inv512 : Ideal.ofBits .f32 0x3B000000#32 = ((1 / 512 : ℝ) : EReal) := by
  simp [Ideal.ofBits, Ideal.ieee, -EReal.coe_mul]; norm_num

/-- The word `0x48800000` is 512² = 262144. -/
theorem ofBits_262144 : Ideal.ofBits .f32 0x48800000#32 = ((262144 : ℝ) : EReal) := by
  simp [Ideal.ofBits, Ideal.ieee, -EReal.coe_mul]; norm_num

/-- The word `0x36800000` is 2⁻¹⁸ = 1/262144. -/
theorem ofBits_inv262144 : Ideal.ofBits .f32 0x36800000#32 = ((1 / 262144 : ℝ) : EReal) := by
  simp [Ideal.ofBits, Ideal.ieee, -EReal.coe_mul]; norm_num

/-- A mean over 512 terms taken by division is the sum times 2⁻⁹, for every extended real. -/
theorem div_512 (x : EReal) :
    Ideal.div x (Ideal.ofBits .f32 0x44000000#32) = x * Ideal.ofBits .f32 0x3B000000#32 := by
  rw [ofBits_512, ofBits_inv512, Ideal.div_coe (by norm_num : (512 : ℝ) ≠ 0)]

/-- A mean over 512² terms taken by division is the sum times 2⁻¹⁸, for every extended real. -/
theorem div_262144 (x : EReal) :
    Ideal.div x (Ideal.ofBits .f32 0x48800000#32) = x * Ideal.ofBits .f32 0x36800000#32 := by
  rw [ofBits_262144, ofBits_inv262144, Ideal.div_coe (by norm_num : (262144 : ℝ) ≠ 0)]

/-! ## The centred entry -/

/-- Entry (b, r, c) of the doubly centred stack: the entry less its row mean and its column mean, plus the
    matrix's grand mean, halved and negated. -/
def dc {n : Nat} (D : (⟨3, ![n, 512, 512]⟩ : Shape).Idx → EReal) (b : Fin n) (r c : Fin 512) : EReal :=
  Ideal.ofBits .f32 0xBF000000#32 *
    (((D (ix3 b r c) - (∑ k : Fin 512, D (ix3 b r k)) * Ideal.ofBits .f32 0x3B000000#32)
        - (∑ k : Fin 512, D (ix3 b k c)) * Ideal.ofBits .f32 0x3B000000#32)
      + (∑ q : Fin 512, ∑ k : Fin 512, D (ix3 b q k)) * Ideal.ofBits .f32 0x36800000#32)

/-- The doubly centred stack of 256 matrices. -/
def centered (D : (⟨3, ![256, 512, 512]⟩ : Shape).Idx → EReal) : (⟨3, ![256, 512, 512]⟩ : Shape).Idx → EReal :=
  fun i => dc D (i 0) (i 1) (i 2)

theorem centered_ix3 (D : (⟨3, ![256, 512, 512]⟩ : Shape).Idx → EReal) (b : Fin 256) (r c : Fin 512) :
    centered D (ix3 b r c) = dc D b r c := rfl

/-- Centring depends only on the matrix an entry lies in: if `x` holds four consecutive matrices of `D`, from
    matrix `4·T` on, its entry (p, r, c) centres to the same value as entry (4·T + p, r, c) of `D`. -/
theorem dc_block (x : (⟨3, ![4, 512, 512]⟩ : Shape).Idx → EReal) (D : (⟨3, ![256, 512, 512]⟩ : Shape).Idx → EReal)
    (p : Fin 4) (b : Fin 256) (hx : ∀ r k : Fin 512, x (ix3 p r k) = D (ix3 b r k)) (r c : Fin 512) :
    dc x p r c = dc D b r c := by
  unfold dc
  simp only [hx]

/-! ## A sum over the two trailing axes -/

/-- The host's sum of a stack over its two trailing axes, at matrix `b`: the initial value plus the sum over the
    rows of the sums along each row. The indices that drop to `b` are exactly the (b, q, k). -/
theorem hostSum_trailing (h : (⟨3, ![256, 512, 512]⟩ : Shape).ReducesTo [1, 2] ⟨1, ![256]⟩)
    (x : (⟨3, ![256, 512, 512]⟩ : Shape).Idx → EReal) (init : EReal) (b : Fin 256) :
    Ideal.hostReduceAdd h x init (ix1 b) = init + ∑ q : Fin 512, ∑ k : Fin 512, x (ix3 b q k) := by
  unfold Ideal.hostReduceAdd
  refine congrArg (init + ·) ?_
  rw [← Fintype.sum_prod_type' (fun (q : Fin 512) (k : Fin 512) => x (ix3 b q k))]
  have hval : ∀ i : (⟨3, ![256, 512, 512]⟩ : Shape).Idx, (h.drop i (0 : Fin 1)).val = (i 0).val :=
    fun i => Shape.ReducesTo.drop_apply_val_of_eq h i (0 : Fin 1) (0 : Fin 3)
  have hdrop : ∀ i : (⟨3, ![256, 512, 512]⟩ : Shape).Idx, h.drop i = ix1 b ↔ i 0 = b := by
    intro i
    constructor
    · intro e
      have e0 : (h.drop i (0 : Fin 1)).val = b.val := congrArg Fin.val (congrFun e (0 : Fin 1))
      exact Fin.ext ((hval i).symm.trans e0)
    · intro e
      funext a
      match a with
      | ⟨0, _⟩ => exact Fin.ext ((hval i).trans (congrArg Fin.val e))
  refine Finset.sum_nbij' (fun i => (i 1, i 2)) (fun p => ix3 b p.1 p.2) ?_ ?_ ?_ ?_ ?_
  · intro i _; exact Finset.mem_univ _
  · intro p _
    rw [Finset.mem_filter]
    exact ⟨Finset.mem_univ _, (hdrop _).mpr rfl⟩
  · intro i hi
    rw [Finset.mem_filter] at hi
    have e := (hdrop i).mp hi.2
    subst e
    exact (eq_ix3 i).symm
  · intro p _; rfl
  · intro i hi
    rw [Finset.mem_filter] at hi
    have e := (hdrop i).mp hi.2
    subst e
    exact congrArg x (eq_ix3 i)

end Cert.Centering

end
-- ==== Proof.KernelBlock.lean ====
/-
  What the kernel body leaves in one block, entry by entry.

  The body loads a block `P` of four matrices, sums it along each row, along each column, and sums the row sums
  of each matrix; it scales the row and column sums by 2⁻⁹ and the totals by 2⁻¹⁸, and stores
      -1/2 · (((P − rows) − columns) + totals).
  Each reduction over one axis is the finite sum over that axis's coordinate, so entry (p, q, s) of the stored
  block is the centred entry (p, q, s) of the four-matrix stack `P`.
-/
import proofs.«176287_j41016937676996_1_alg».proof.Proof.Gen.KernelIdeal.Value
import proofs.«176287_j41016937676996_1_alg».proof.Proof.Centering
import Idealize.ShloMosaic.PureOps.Ideal.Laws

noncomputable section

open scoped BigOperators

namespace Cert.KernelIdeal.BlockValue

open Cert.KernelIdeal Cert.KernelIdeal.Gen Cert.KernelIdeal.Value
open Idealize.ShloMosaic Idealize.ShloMosaic.ValueIdx Cert.Centering

/-- The sum along a row: at (p, q) it is ∑ₖ P p q k. -/
theorem rowSum (P : FVec Ideal S4x512x512 .f32) (p : Fin 4) (q : Fin 512) :
    multiReduction .add [2] S4x512 P 0x00000000#32 reduces_S4x512x512_S4x512 (.inl rfl) rfl (ix2 p q)
      = ∑ k : Fin 512, P (ix3 p q k) := by
  refine (Ideal.multiReduction_add_single P 0x00000000#32 reduces_S4x512x512_S4x512 (.inl rfl) rfl (ix2 p q)).trans ?_
  refine Finset.sum_congr rfl fun k _ => ?_
  exact congrArg P (funext fun a => Fin.ext (by match a with | ⟨0, _⟩ => rfl | ⟨1, _⟩ => rfl | ⟨2, _⟩ => rfl))

/-- The sum along a column: at (p, s) it is ∑ₖ P p k s. -/
theorem colSum (P : FVec Ideal S4x512x512 .f32) (p : Fin 4) (s : Fin 512) :
    multiReduction .add [1] S4x512 P 0x00000000#32 reduces_S4x512x512_S4x512_2 (.inl rfl) rfl (ix2 p s)
      = ∑ k : Fin 512, P (ix3 p k s) := by
  refine (Ideal.multiReduction_add_single P 0x00000000#32 reduces_S4x512x512_S4x512_2 (.inl rfl) rfl (ix2 p s)).trans ?_
  refine Finset.sum_congr rfl fun k _ => ?_
  exact congrArg P (funext fun a => Fin.ext (by match a with | ⟨0, _⟩ => rfl | ⟨1, _⟩ => rfl | ⟨2, _⟩ => rfl))

/-- The total of matrix p: the sum over its rows of the row sums. -/
theorem totalSum (P : FVec Ideal S4x512x512 .f32) (p : Fin 4) :
    multiReduction .add [1] S4x1
        (shapeCast S4x512x1 (multiReduction .add [2] S4x512 P 0x00000000#32 reduces_S4x512x512_S4x512 (.inl rfl) rfl)
          shapeCasts_S4x512_S4x512x1)
        0x00000000#32 reduces_S4x512x1_S4x1 (.inl rfl) rfl (ix2 p (0 : Fin 1))
      = ∑ q : Fin 512, ∑ k : Fin 512, P (ix3 p q k) := by
  refine (Ideal.multiReduction_add_single _ 0x00000000#32 reduces_S4x512x1_S4x1 (.inl rfl) rfl (ix2 p (0 : Fin 1))).trans ?_
  refine Finset.sum_congr rfl fun q _ => ?_
  refine (shapeCast_apply _ shapeCasts_S4x512_S4x512x1 _ (ix2 p q) ?_).trans (rowSum P p q)
  rw [Shape.rowMajor_val_two, Shape.rowMajor_val_three]
  show p.val * 512 + q.val = (p.val * 512 + q.val) * 1 + 0
  omega

/-- Entry (p, q, s) of the block the body stores is the centred entry (p, q, s) of the loaded four-matrix stack. -/
theorem stored_apply (P : FVec Ideal S4x512x512 .f32) (p : Fin 4) (q s : Fin 512) :
    E1 (F := Ideal) P (ix3 p q s) = dc P p q s := by
  have e0 : ix1_0 (ix3 p q s) = ix3 p q s := by
    funext a; match a with | ⟨0, _⟩ => rfl | ⟨1, _⟩ => rfl | ⟨2, _⟩ => rfl
  have e1 : ix1_1 (ix3 p q s) = ix2 p q := by
    funext a; match a with | ⟨0, _⟩ => rfl | ⟨1, _⟩ => rfl
  have e2 : ix1_2 (ix3 p q s) = ix2 p s := by
    funext a; match a with | ⟨0, _⟩ => rfl | ⟨1, _⟩ => rfl
  have e3 : ix1_3 (ix3 p q s) = ix2 p (0 : Fin 1) := by
    funext a; match a with | ⟨0, _⟩ => rfl | ⟨1, _⟩ => rfl
  show Ideal.ofBits .f32 0xBF000000#32 * (((P (ix1_0 (ix3 p q s)) - _ * Ideal.ofBits .f32 0x3B000000#32) - _ * Ideal.ofBits .f32 0x3B000000#32) + _ * Ideal.ofBits .f32 0x36800000#32) = _
  rw [e0, e1, e2, e3, rowSum, colSum, totalSum]
  rfl

theorem zero_offsets : (![0, 0, 0] : Fin 3 → Nat) = fun _ => 0 := funext fun a => by fin_cases a <;> rfl

/-- The body's one store covers the whole block, and its one load reads the whole input block: what the body leaves
    in the output buffer is the stored value of the input block, entry by entry. -/
theorem out_apply (x : Vec Ideal S4x512x512 .f32) (y : S4x512x512.Idx) : out0_1 x y = E1 (F := Ideal) x y := by
  unfold out0_1
  rw [View.ld_unit_zero (S := S4x512x512) zero_offsets]
  exact canon1_eq x y

/-- Matrix `p` of the block that starts at matrix `4·T` of the stack of 256. -/
def batchOf (T : Nat) (hT : T < 64) (p : Fin 4) : Fin 256 := ⟨4 * T + p.val, by omega⟩

/-- If the loaded block `x` is the four matrices of the stack `D` from matrix `4·T` on, then what the body stores at
    block entry `y` is the centred stack of `D` at the entry of `D` that `y` lies over: centring one matrix looks at
    no other matrix, and the block holds its four matrices whole. -/
theorem stored_block (x : FVec Ideal S4x512x512 .f32) (D : (⟨3, ![256, 512, 512]⟩ : Shape).Idx → EReal)
    (T : Nat) (hT : T < 64)
    (hx : ∀ (p : Fin 4) (r k : Fin 512), x (ix3 p r k) = D (ix3 (batchOf T hT p) r k)) (y : S4x512x512.Idx) :
    E1 (F := Ideal) x y = centered D (ix3 (batchOf T hT (y 0)) (y 1) (y 2)) := by
  obtain ⟨p, q, s, rfl⟩ : ∃ (p : Fin 4) (q s : Fin 512), y = ix3 p q s := ⟨y 0, y 1, y 2, eq_ix3 y⟩
  show E1 (F := Ideal) x (ix3 p q s) = centered D (ix3 (batchOf T hT p) q s)
  rw [stored_apply, centered_ix3]
  exact dc_block x D p _ (hx p) q s

end Cert.KernelIdeal.BlockValue

end
-- ==== Proof.KernelArray.lean ====
/-
  The kernel's result array is the doubly centred stack of its argument.

  Grid point `t` (of 64) stages matrices 4t … 4t+3 of the argument — all 512 × 512 entries of each — and writes
  back matrices 4t … 4t+3 of the result. An entry of the block at (p, r, c) sits in the array at (4t + p, r, c). So
  the block the body loads is the four matrices of the argument from 4t on, what it stores is their centring, and
  that is the centred stack read through the result's block. The 64 blocks cover the result: entry (b, r, c) is in
  block b / 4. Hence the whole result array is the centred stack.
-/
import proofs.«176287_j41016937676996_1_alg».proof.Proof.Gen.KernelIdeal.Value
import proofs.«176287_j41016937676996_1_alg».proof.Proof.KernelBlock
import proofs.«176287_j41016937676996_1_alg».proof.Proof.Centering
import Idealize.ShloMosaic.Lib.Pipeline.Value

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.Centering
open Idealize.ShloMosaic.Pipeline (Dat)

variable (m : (ℓ : Loc nD τ sig) → Buf (Elt Ideal) ℓ) (ρ : Dev nD → PrngReg)

/-- Both windows' blocks at point `t` start at matrix `4·t`, row 0, column 0 (decided over the 64 points). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 ∧ t.val < 64 :=
  (by decide +kernel : ∀ t : Fin grid0.N, _)

/-- Every group of four matrices is some point's block. -/
theorem idx_onto : ∀ q0 : Fin 64, ∃ t : Fin cfg0.N, win0_1.index t = ![q0.val, 0, 0] :=
  (by decide +kernel : ∀ q0 : Fin 64, ∃ t : Fin grid0.N, win0_1.index t = ![q0.val, 0, 0])

/-- What point `t` writes back is block `t` of the centred stack of the argument. -/
theorem flushed_eq (c : Dev nD) (t : Fin cfg0.N) :
    (dats m 0 c).flushed 1 t
      = ((cfg0.win 1).blk t).view.read (Elt Ideal) (centered (m ((c : Thread nD τ).loc main_arg0))) := by
  rw [Value.flushed1]
  obtain ⟨a0, a1, a2, b0, b1, b2, hT⟩ := idx_facts t
  funext j
  show out0_1 (iblk m c 0 t) j
    = centered (m ((c : Thread nD τ).loc main_arg0)) (((cfg0.win 1).blk t).view.emb j)
  refine (out_apply _ j).trans ?_
  refine (stored_block _ (m ((c : Thread nD τ).loc main_arg0)) t.val hT ?_ j).trans ?_
  · intro p r k
    show m ((c : Thread nD τ).loc main_arg0) (((cfg0.win 0).blk t).view.emb (ix3 p r k)) = _
    refine congrArg (m ((c : Thread nD τ).loc main_arg0)) (funext fun a => Fin.ext ?_)
    match a with
    | ⟨0, _⟩ => show win0_0.index t (0 : Fin 3) * 4 + 1 * p.val = 4 * t.val + p.val; omega
    | ⟨1, _⟩ => show win0_0.index t (1 : Fin 3) * 512 + 1 * r.val = r.val; omega
    | ⟨2, _⟩ => show win0_0.index t (2 : Fin 3) * 512 + 1 * k.val = k.val; omega
  · refine congrArg (centered (m ((c : Thread nD τ).loc main_arg0))) (funext fun a => Fin.ext ?_)
    match a with
    | ⟨0, _⟩ => show 4 * t.val + (j 0).val = win0_1.index t (0 : Fin 3) * 4 + 1 * (j 0).val; omega
    | ⟨1, _⟩ => show (j 1).val = win0_1.index t (1 : Fin 3) * 512 + 1 * (j 1).val; omega
    | ⟨2, _⟩ => show (j 2).val = win0_1.index t (2 : Fin 3) * 512 + 1 * (j 2).val; omega

/-- An entry of the result is in point `t`'s block iff each coordinate is in the block's range on its axis. -/
theorem mem_blk (t : Fin cfg0.N) (i : S256x512x512.Idx) :
    i ∈ ((cfg0.win 1).blk t).view.set ↔ ∀ a : Fin 3, win0_1.index t a * S4x512x512.size a ≤ (i a).val
      ∧ (i a).val < win0_1.index t a * S4x512x512.size a + S4x512x512.size a := by
  show i ∈ ((View.whole main_v0).slice (win0_1.rect t)).set ↔ _
  rw [View.set_slice_whole, Rect.mem_set_unit]
  exact Iff.rfl

/-- The blocks cover the result: entry (b, r, c) lies in the block of the point whose matrices are 4·(b/4) … . -/
theorem cover (i : S256x512x512.Idx) :
    ∃ t : Fin cfg0.N, (cfg0.win 1).flush t = true ∧ i ∈ ((cfg0.win 1).blk t).view.set := by
  have hi0 : (i 0).val < 256 := (i 0).isLt
  have hi1 : (i 1).val < 512 := (i 1).isLt
  have hi2 : (i 2).val < 512 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- The result array after the run is the centred stack of the argument. -/
theorem final (c : Dev nD) :
    (dats m 0 c).arrAt 1 cfg0.N = centered (m ((c : Thread nD τ).loc main_arg0)) :=
  (dats m 0 c).arrAt_eq_of_cover 1 (centered (m ((c : Thread nD τ).loc main_arg0)))
    (fun t _ => flushed_eq m c t) cover

/-- The kernel's run: it terminates with the result at the centred stack of the argument, the argument unchanged. -/
theorem run : θ_run defs (onTc (τ := τ) (main (F := Ideal))) ⟨m, fun _ => 0, ρ⟩ fun r => ∀ c : Dev nD,
      r.2.mem ((c : Thread nD τ).loc main_v0) = centered (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.RefCentered.lean ====
/-
  The reference computes the doubly centred stack.

  Read one entry at a time, the reference's result at (b, r, c) is
      -1/2 · (((D b r c − (0 + ∑ₖ D b r k) / 512) − (0 + ∑ₖ D b k c) / 512) + (0 + ∑_{q,k} D b q k) / 512²):
  the three means are sums divided by the counts 512, 512 and 512².  Dividing by 512 is multiplying by 2⁻⁹ and
  dividing by 512² is multiplying by 2⁻¹⁸ on every extended real, the leading zeros vanish, and the sum over both
  trailing axes is the sum over rows of the row sums: that is the centred entry.
-/
import proofs.«176287_j41016937676996_1_alg».proof.Proof.Gen.ReferenceIdeal.Read
import proofs.«176287_j41016937676996_1_alg».proof.Proof.Centering

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Centering

/-- The matrix totals: the sum over both trailing axes, at matrix `b`, is zero plus the sum over the rows of
    the row sums. -/
theorem total_apply (x0 : (⟨S256x512x512, .f32⟩ : BufTy).Contents (Elt Ideal)) (b : Fin 256) :
    val_main_v8 (F := Ideal) x0 (ix1 b)
      = Ideal.ofBits .f32 0x00000000#32 + ∑ q : Fin 512, ∑ k : Fin 512, x0 (ix3 b q k) := by
  unfold val_main_v8
  simp only [Host.reduceAdd, Ideal.hostReduceAdd_def]
  exact hostSum_trailing _ x0 _ b

/-- The row of entry (b, r, c): the indices its row sum runs over. -/
theorem row_idx (b : Fin 256) (r c k : Fin 512) :
    idx_main_v0 (idx_main_v1 (idx_main_v12 (ix3 b r c))) k = ix3 b r k := by
  funext a; match a with | ⟨0, _⟩ => rfl | ⟨1, _⟩ => rfl | ⟨2, _⟩ => rfl

/-- The column of entry (b, r, c): the indices its column sum runs over. -/
theorem col_idx (b : Fin 256) (r c k : Fin 512) :
    idx_main_v4 (idx_main_v5 (idx_main_v14 (ix3 b r c))) k = ix3 b k c := by
  funext a; match a with | ⟨0, _⟩ => rfl | ⟨1, _⟩ => rfl | ⟨2, _⟩ => rfl

/-- The matrix of entry (b, r, c). -/
theorem mat_idx (b : Fin 256) (r c : Fin 512) :
    idx_main_v9 (idx_main_v16 (ix3 b r c)) = ix1 b := by
  funext a; match a with | ⟨0, _⟩ => rfl

/-- The reference's result is the doubly centred stack of its argument. -/
theorem ref_centered (x0 : (⟨S256x512x512, .f32⟩ : BufTy).Contents (Elt Ideal)) :
    val_main_v19 (F := Ideal) x0 = centered x0 := by
  funext i
  obtain ⟨b, r, c, rfl⟩ : ∃ (b : Fin 256) (r c : Fin 512), i = ix3 b r c := ⟨i 0, i 1, i 2, eq_ix3 i⟩
  rw [centered_ix3]
  rw [val_main_v19_apply, val_main_v18_apply, val_main_cst_5_apply, val_main_v17_apply, val_main_v15_apply,
    val_main_v13_apply, val_main_v12_apply, val_main_v3_apply, val_main_v1_apply, val_main_v0_apply,
    val_main_v2_apply, val_main_cst_0_apply, val_main_v14_apply, val_main_v7_apply, val_main_v5_apply,
    val_main_v4_apply, val_main_v6_apply, val_main_cst_2_apply, val_main_v16_apply, val_main_v11_apply,
    val_main_v9_apply, val_main_v10_apply, val_main_cst_4_apply, val_main_cst_apply, val_main_cst_1_apply,
    mat_idx, total_apply]
  simp only [row_idx, col_idx]
  simp only [Ideal.mulf_def, Ideal.addf_def, Ideal.subf_def, Ideal.hostDivf_def, Ideal.ofBits_def,
    Ideal.ofBits_zero_f32, zero_add, div_512, div_262144]
  rfl

end Cert.ReferenceIdeal.RefValue

end
-- ==== Proof.lean ====
/-
  Double centring of 256 distance matrices: the kernel against its reference, over the extended reals.

  Both programs map a stack `D` of 256 matrices of 512 × 512 to  T = -1/2 · (D − row means − column means + grand mean).
  The kernel takes four matrices per grid point, sums rows and columns with lane and sublane reductions, sums the row
  sums for the matrix total, and scales by the dyadic constants 2⁻⁹ and 2⁻¹⁸; the reference sums on the host
  (over one axis twice, over both trailing axes once) and divides by 512 and by 512².  On the extended reals a
  division by 512 is the product with 2⁻⁹ (likewise 512² and 2⁻¹⁸), and the sum over both trailing axes is the sum
  over rows of the row sums, so both results are the one function `Cert.Centering.centered` of the argument
  (Proof/Centering.lean).  Proof/KernelBlock.lean reads what the body stores in one block, Proof/KernelArray.lean
  carries it to the whole result array through the 64 blocks, Proof/RefCentered.lean reads the reference's result.
  The finiteness of the input is not used: no step distributes a product over a sum or cancels.

  The frames of the two kernel programs and the reference's run are the generated ones; the idealization rewrote
  no operation, so there is nothing to preserve.
-/
import proofs.«176287_j41016937676996_1_alg».proof.Defs
import proofs.«176287_j41016937676996_1_alg».proof.Proof.Gen.Kernel
import proofs.«176287_j41016937676996_1_alg».proof.Proof.Gen.Kernel.Frame
import proofs.«176287_j41016937676996_1_alg».proof.Proof.Gen.KernelIdeal
import proofs.«176287_j41016937676996_1_alg».proof.Proof.Gen.KernelIdeal.Frame
import proofs.«176287_j41016937676996_1_alg».proof.Proof.Gen.KernelIdeal.Value
import proofs.«176287_j41016937676996_1_alg».proof.Proof.Gen.ReferenceIdeal
import proofs.«176287_j41016937676996_1_alg».proof.Proof.Gen.ReferenceIdeal.Run
import proofs.«176287_j41016937676996_1_alg».proof.Proof.Gen.ReferenceIdeal.Read
import proofs.«176287_j41016937676996_1_alg».proof.Proof.Gen.Pre_finite_inputs
import proofs.«176287_j41016937676996_1_alg».proof.Proof.Centering
import proofs.«176287_j41016937676996_1_alg».proof.Proof.KernelArray
import proofs.«176287_j41016937676996_1_alg».proof.Proof.RefCentered
import Idealize.ShloMosaic.Adequacy
import Idealize.ShloMosaic.Init

noncomputable section

namespace Cert.Proof

open Idealize.ShloMosaic Idealize.ShloMosaic.TcCoe Idealize.SL.Sem

/-- The word-level kernel runs and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the doubly centred stack of the argument they share. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.ref_centered, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
